-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x33554432 : Shape := ⟨2, ![1, 33554432]⟩
abbrev S_ : Shape := ⟨0, ![]⟩

class Facts : Prop where
  bcast_S_S1x33554432 : S_.BroadcastsInDim S1x33554432 (![] : Fin 0 → Fin S1x33554432.rank)
  reducesTo_S1x33554432_S_d0_1 : S1x33554432.ReducesTo [0, 1] S_
  h_S_ : 0 < S_.numel

variable [Facts]

def fn {F : FTy → Type} [FloatOps F] (main_arg0 : FVec F S1x33554432 .f32) (main_arg1 : IVec S1x33554432 32) : IVec S_ 1 :=
  let main_v0 : FVec F S1x33554432 .f32 := Host.absf main_arg0
  let main_cst : FVec F S_ .f32 := constant S_ .f32 0x7F800000#32
  let main_v1 : FVec F S1x33554432 .f32 := broadcastInDim S1x33554432 ![] bcast_S_S1x33554432 main_cst
  let main_v2 : IVec S1x33554432 1 := cmpf .olt main_v0 main_v1
  let main_c : IVec S_ 1 := constantI S_ 1 1#1
  let main_v3 : IVec S_ 1 := (fun x v => Host.reduce IntOp.andi x v reducesTo_S1x33554432_S_d0_1 h_S_) main_v2 main_c
  main_v3
-- ==== Kernel.lean ====
abbrev S1x33554432 : Shape := ⟨2, ![1, 33554432]⟩
abbrev S32768x1024 : Shape := ⟨2, ![32768, 1024]⟩
abbrev S16x128 : Shape := ⟨2, ![16, 128]⟩
abbrev S2048x1024 : Shape := ⟨2, ![2048, 1024]⟩
abbrev S8x128 : Shape := ⟨2, ![8, 128]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 33
  | .vmem => 6
  | .smem => 0
  | _ => 0

abbrev bufTy : (tb : Table) → Fin (tcTables nBuf tb) → BufTy
  | .hbm, ⟨0, _⟩ => ⟨S1x33554432, .f32⟩
  | .hbm, ⟨1, _⟩ => ⟨S1x33554432, .i32⟩
  | .hbm, ⟨2, _⟩ => ⟨S32768x1024, .f32⟩
  | .hbm, ⟨3, _⟩ => ⟨S32768x1024, .i32⟩
  | .hbm, ⟨4, _⟩ => ⟨S16x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .i1⟩
  | .hbm, ⟨32, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .i32⟩
  | .local _ .vmem, ⟨3, _⟩ => ⟨S2048x1024, .i32⟩
  | .local _ .vmem, ⟨4, _⟩ => ⟨S8x128, .f32⟩
  | .local _ .vmem, ⟨5, _⟩ => ⟨S8x128, .f32⟩
  | _, _ => ⟨S1x33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_3 : BitVec 32 := 0#32
  let c8_i32 : BitVec 32 := 8#32
  let v6 : BitVec 32 := Scalar.addi c0_i32_3 c8_i32
  let c1_i32 : BitVec 32 := 1#32
  ⟨c0_i32_3, v6, c1_i32⟩
def k0_mult1 (k0_t1 : Fin k0_t1_loop.trips) : BitVec 32 :=
  let c0_i32_3 : BitVec 32 := 0#32
  let c1_i32 : BitVec 32 := 1#32
  let arg5 : BitVec 32 := Scf.iv c0_i32_3 c1_i32 k0_t1
  let c256_i32 : BitVec 32 := 256#32
  let v33 : BitVec 32 := Scalar.muli arg5 c256_i32
  v33
def k0_off1 (k0_t1 : Fin k0_t1_loop.trips) : Fin 2 → Nat :=
  let c0_i32_3 : BitVec 32 := 0#32
  let c1_i32 : BitVec 32 := 1#32
  let arg5 : BitVec 32 := Scf.iv c0_i32_3 c1_i32 k0_t1
  let c256_i32 : BitVec 32 := 256#32
  let v33 : BitVec 32 := Scalar.muli arg5 c256_i32
  let v34 : BitVec 32 := v33
  let v35 : Index := Scalar.indexCast v34
  let c0_13 : Index := 0#32
  ![v35.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S1x33554432_S32768x1024 : S1x33554432.ShapeCasts S32768x1024
  inb_S8x128_S8x128_0_0 : ∀ a, (![0, 0] : Fin 2 → Nat) a + S8x128.size a ≤ S8x128.size a
  h_S8x128 : 0 < S8x128.numel
  h_S256x1024 : 0 < S256x1024.numel
  shapeCasts_S256x1024_S256x1024 : S256x1024.ShapeCasts S256x1024
  natLt_1_32 : 1 < 32
  reduces_S256x1024_S256 : S256x1024.Reduces [1] S256
  shapeCasts_S256_S256x1 : S256.ShapeCasts S256x1
  reduces_S256x1_S1 : S256x1.Reduces [0] S1
  shapeCasts_S1_S1x1 : S1.ShapeCasts S1x1
  iota_S8x128_d1_w32 : S8x128.Iotas .tc 32 [1]
  shapeCasts_S1x1_S1x1 : S1x1.ShapeCasts S1x1
  broadcasts_S1x1_S8x128 : S1x1.Broadcasts S8x128
  shapeCasts_S8x128_S8x128 : S8x128.ShapeCasts S8x128
  slices_S16x128_S1x1_0_0 : S16x128.Slices ![0, 0] S1x1
  shapeCasts_S1x1_S_ : S1x1.ShapeCasts S_
  slices_S16x128_S1x1_8_0 : S16x128.Slices ![8, 0] S1x1
  slices_S16x128_S1x1_0_1 : S16x128.Slices ![0, 1] S1x1
  slices_S16x128_S1x1_8_1 : S16x128.Slices ![8, 1] S1x1
  slices_S16x128_S1x1_0_2 : S16x128.Slices ![0, 2] S1x1
  slices_S16x128_S1x1_8_2 : S16x128.Slices ![8, 2] S1x1
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x1024.size a ≤ S2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S32768x1024.size a
  hwx0_1 : ∀ i : grid0.Coords, EltTy.bits .i32 = 32 ∨ (Rect.block (s := S32768x1024) S2048x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x33554432 : Shape := ⟨2, ![1, 33554432]⟩
abbrev S33554432 : Shape := ⟨1, ![33554432]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1x33554432, .f32⟩
  | .hbm, ⟨1, _⟩ => ⟨S1x33554432, .i32⟩
  | .hbm, ⟨2, _⟩ => ⟨S33554432, .f32⟩
  | .hbm, ⟨3, _⟩ => ⟨S33554432, .f32⟩
  | .hbm, ⟨4, _⟩ => ⟨S33554432, .f32⟩
  | .hbm, ⟨5, _⟩ => ⟨S_, .f32⟩
  | .hbm, ⟨6, _⟩ => ⟨S33554432, .f32⟩
  | .hbm, ⟨7, _⟩ => ⟨S33554432, .f32⟩
  | .hbm, ⟨8, _⟩ => ⟨S_, .f32⟩
  | .hbm, ⟨9, _⟩ => ⟨S33554432, .f32⟩
  | .hbm, ⟨10, _⟩ => ⟨S33554432, .f32⟩
  | .hbm, ⟨11, _⟩ => ⟨S33554432, .i32⟩
  | .hbm, ⟨12, _⟩ => ⟨S_, .i32⟩
  | .hbm, ⟨13, _⟩ => ⟨S33554432, .i32⟩
  | .hbm, ⟨14, _⟩ => ⟨S33554432, .i1⟩
  | .hbm, ⟨15, _⟩ => ⟨S33554432, .f32⟩
  | .hbm, ⟨16, _⟩ => ⟨S_, .f32⟩
  | .hbm, ⟨17, _⟩ => ⟨S33554432, .f32⟩
  | .hbm, ⟨18, _⟩ => ⟨S33554432, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S33554432, .f32⟩
  | .hbm, ⟨24, _⟩ => ⟨S33554432, .f32⟩
  | .hbm, ⟨25, _⟩ => ⟨S_, .f32⟩
  | .hbm, ⟨26, _⟩ => ⟨S_, .f32⟩
  | .hbm, ⟨27, _⟩ => ⟨S33554432, .f32⟩
  | .hbm, ⟨28, _⟩ => ⟨S33554432, .f32⟩
  | .hbm, ⟨29, _⟩ => ⟨S33554432, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .i1⟩
  | .hbm, ⟨42, _⟩ => ⟨S_, .f32⟩
  | _, _ => ⟨S1x33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  shapeCasts_S1x33554432_S33554432 : S1x33554432.ShapeCasts S33554432
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.Spec.lean ====
/-
  The label-correlation loss, as mathematics over the extended reals: the quantities both programs compute.

  For a score `x` and an integer label `w`: `p = sigmoid x`; the label is POSITIVE when `w > 0` as a signed integer.
  Over all 2^25 positions the programs total
    * the positive labels                         (`tPos`),
    * `exp p` over the non-positive labels        (`tNegExp`),
    * `exp (-p)` over the positive labels         (`tPosExp`),
  and the loss is `tPosExp · tNegExp / max (n₊ · n₋) 1`, or `tNegExp / max n₋ 1` when there is no positive label,
  with `n₊ = tPos` and `n₋ = 2^25 - n₊`.
-/
import Idealize.ShloMosaic.PureOps.Ideal
import Idealize.ShloMosaic.Lib.ValueIdx

noncomputable section

namespace Cert.LabelCorr

open Idealize.ShloMosaic

/-- The label's mask bit: `1` when the label word is positive as a signed integer. -/
def maskBit (w : BitVec 32) : BitVec 1 := IntOp.cmpi .sgt w 0#32

/-- `1` at a positive label, else `0`. -/
def posTerm (w : BitVec 32) : EReal := (((maskBit w).toNat : ℝ) : EReal)

/-- The sigmoid of a score. -/
def prob (x : EReal) : EReal := Ideal.logistic x

/-- `exp p` at a non-positive label, else `0`. -/
def negExp (x : EReal) (w : BitVec 32) : EReal := if maskBit w = 1#1 then 0 else Ideal.exp (prob x)

/-- `exp (-p)` at a positive label, else `0`. -/
def posExp (x : EReal) (w : BitVec 32) : EReal := if maskBit w = 1#1 then Ideal.exp (-(prob x)) else 0

/-- The loss from the four totals: positives, non-positives, `∑ exp p` over non-positives, `∑ exp (-p)` over positives. -/
def loss (np nn sn sp : EReal) : EReal :=
  Scalar.select (Ideal.cmp .oeq np 0) (Ideal.div sn (max nn 1)) (Ideal.div (sp * sn) (max (np * nn) 1))

/-- The scores and labels as the programs receive them: one row of 2^25 entries. -/
abbrev Scores := (⟨2, ![1, 33554432]⟩ : Shape).Idx → EReal
abbrev Labels := (⟨2, ![1, 33554432]⟩ : Shape).Idx → BitVec 32

/-- Entry `n` of the row, `n` a natural number below 2^25 (and entry 0 beyond: never read). -/
def rowIdx (n : ℕ) : (⟨2, ![1, 33554432]⟩ : Shape).Idx :=
  ValueIdx.ix2 (0 : Fin 1) (⟨n % 33554432, Nat.mod_lt _ (by norm_num)⟩ : Fin 33554432)

/-- The three totals over the 2^25 positions. -/
def tPos (y : Labels) : EReal := ∑ n : Fin 33554432, posTerm (y (rowIdx n.val))
def tNegExp (x : Scores) (y : Labels) : EReal := ∑ n : Fin 33554432, negExp (x (rowIdx n.val)) (y (rowIdx n.val))
def tPosExp (x : Scores) (y : Labels) : EReal := ∑ n : Fin 33554432, posExp (x (rowIdx n.val)) (y (rowIdx n.val))

/-- The loss of a row of scores and labels. -/
def lossOf (x : Scores) (y : Labels) : EReal :=
  loss (tPos y) (((33554432 : ℝ) : EReal) - tPos y) (tNegExp x y) (tPosExp x y)

end Cert.LabelCorr

end
-- ==== Proof.Consts.lean ====
/-
  The float constants the two programs spell, as the extended reals their patterns denote: `1.0` is `1` and
  `0x4C000000` is `2^25 = 33554432`, the number of labels. (`+0.0` is `0`: the library's `Ideal.ofBits_zero_f32`.)
  Stated once, here, and cited everywhere else.
-/
import Idealize.ShloMosaic.PureOps.Ideal
import Idealize.ShloMosaic.PureOps.Ideal.Laws

noncomputable section

namespace Cert.LabelCorr

open Idealize.ShloMosaic

/-- `1.0` denotes `1`. -/
theorem ofBits_one : Ideal.ofBits .f32 0x3F800000#32 = 1 := by
  simp [Ideal.ofBits, Ideal.ieee, -EReal.coe_mul]; norm_num

/-- `0x4C000000` denotes `2^25`, the number of labels. -/
theorem ofBits_count : Ideal.ofBits .f32 0x4C000000#32 = ((33554432 : ℝ) : EReal) := by
  simp [Ideal.ofBits, Ideal.ieee, -EReal.coe_mul]; norm_num

/-- `+0.0` denotes `0`. -/
theorem ofBits_zero : Ideal.ofBits .f32 0x00000000#32 = 0 := Ideal.ofBits_zero_f32

end Cert.LabelCorr

end
-- ==== Proof.Sums.lean ====
/-
  Finite sums, re-indexed: the arithmetic both sides of the certificate lean on, with no program in sight.

  * A sum over `Fin (a * b)` is the double sum over `Fin a` and `Fin b` at `p * b + q` (row-major), and so a sum
    over the 2^25 flat positions is the five-fold sum over (core, grid step, chunk, row, lane) at
    `((((c * 8 + k) * 8 + j) * 256 + r) * 1024 + l`.
  * A running total that starts at `z` and adds `b j` at step `j` is `z` plus the sum of the `b j`.
  * A running total over grid points that is RESET at every point divisible by 8 holds, at point `8 c + 7`, the sum of
    the eight contributions of points `8 c … 8 c + 7`.
  * Over the extended reals, for real `q i`: `∑ (1 - q i) = card - ∑ q i`.
-/
import Mathlib.Algebra.BigOperators.Fin
import Mathlib.Data.EReal.Basic
import Mathlib.Data.EReal.Operations
import Mathlib.Logic.Equiv.Fin.Basic
import Mathlib.Tactic.Ring
import Mathlib.Tactic.NormNum

open Finset

namespace Cert.LabelCorr

/-- Row-major splitting of a sum over `Fin (a * b)`. -/
theorem sum_fin_mul {M : Type*} [AddCommMonoid M] (a b : ℕ) (f : ℕ → M) :
    ∑ i : Fin (a * b), f i.val = ∑ p : Fin a, ∑ q : Fin b, f (p.val * b + q.val) := by
  rw [← (Equiv.sum_comp finProdFinEquiv fun i : Fin (a * b) => f i.val), Fintype.sum_prod_type]
  refine Finset.sum_congr rfl fun p _ => Finset.sum_congr rfl fun q _ => ?_
  congr 1
  show q.val + b * p.val = p.val * b + q.val
  ring

/-- The flat position of lane `l` of row `r` of chunk `j` of grid step `k` of core `c`. -/
def flatPos (c k j r l : ℕ) : ℕ := ((((c * 8 + k) * 8 + j) * 256 + r) * 1024 + l)

/-- A sum over the 2^25 flat positions, taken core by core, step by step, chunk by chunk, row by row, lane by lane. -/
theorem sum_flat_split {M : Type*} [AddCommMonoid M] (f : ℕ → M) :
    ∑ i : Fin 33554432, f i.val
      = ∑ c : Fin 2, ∑ k : Fin 8, ∑ j : Fin 8, ∑ r : Fin 256, ∑ l : Fin 1024, f (flatPos c.val k.val j.val r.val l.val) := by
  refine (sum_fin_mul 2 16777216 f).trans ?_
  refine Finset.sum_congr rfl fun c _ => ?_
  refine (sum_fin_mul 8 2097152 (fun n => f (c.val * 16777216 + n))).trans ?_
  refine Finset.sum_congr rfl fun k _ => ?_
  refine (sum_fin_mul 8 262144 (fun n => f (c.val * 16777216 + (k.val * 2097152 + n)))).trans ?_
  refine Finset.sum_congr rfl fun j _ => ?_
  refine (sum_fin_mul 256 1024 (fun n => f (c.val * 16777216 + (k.val * 2097152 + (j.val * 262144 + n))))).trans ?_
  refine Finset.sum_congr rfl fun r _ => Finset.sum_congr rfl fun l _ => ?_
  show f _ = f _
  congr 1
  unfold flatPos
  ring

/-- A running total from `z`, adding `b j` at step `j`, after `n` steps. -/
theorem running_total {M : Type*} [AddCommMonoid M] (z : M) (b : ℕ → M) (s : ℕ → M) (h0 : s 0 = z)
    (hs : ∀ j, s (j + 1) = s j + b j) (n : ℕ) : s n = z + ∑ j ∈ range n, b j := by
  induction n with
  | zero => simp [h0]
  | succ n ih => rw [hs, ih, Finset.sum_range_succ, add_assoc]

/-- A running total over the first `N` grid points, RESET to `z + g n` at every point `n` divisible by 8 and otherwise adding
    `g n` to what the point before left: at point `n` it is `z` plus the contributions of the points of `n`'s group of eight
    up to `n`. -/
theorem grouped_total {M : Type*} [AddCommMonoid M] (z : M) (g : ℕ → M) (s : ℕ → M) (N : ℕ)
    (hreset : ∀ n, n < N → n % 8 = 0 → s n = z + g n) (hacc : ∀ n, n < N → ¬ n % 8 = 0 → s n = s (n - 1) + g n) (n : ℕ)
    (hn : n < N) : s n = z + ∑ k ∈ range (n % 8 + 1), g (8 * (n / 8) + k) := by
  induction n with
  | zero => rw [hreset 0 hn rfl]; simp
  | succ n ih =>
    by_cases h : (n + 1) % 8 = 0
    · rw [hreset _ hn h, h]
      have : 8 * ((n + 1) / 8) = n + 1 := by omega
      simp [this]
    · rw [hacc _ hn h, Nat.add_sub_cancel, ih (by omega)]
      have h1 : (n + 1) % 8 = n % 8 + 1 := by omega
      have h2 : (n + 1) / 8 = n / 8 := by omega
      rw [h1, h2, Finset.sum_range_succ (fun k => g (8 * (n / 8) + k)) (n % 8 + 1), add_assoc]
      congr 2
      congr 1
      omega

/-- At the last point of a group the total is `z` plus the group's eight contributions. -/
theorem grouped_total_last {M : Type*} [AddCommMonoid M] (z : M) (g : ℕ → M) (s : ℕ → M) (N : ℕ)
    (hreset : ∀ n, n < N → n % 8 = 0 → s n = z + g n) (hacc : ∀ n, n < N → ¬ n % 8 = 0 → s n = s (n - 1) + g n) (c : ℕ)
    (hc : 8 * c + 7 < N) : s (8 * c + 7) = z + ∑ k : Fin 8, g (8 * c + k.val) := by
  rw [grouped_total z g s N hreset hacc _ hc]
  have h1 : (8 * c + 7) % 8 = 7 := by omega
  have h2 : (8 * c + 7) / 8 = c := by omega
  rw [h1, h2, Fin.sum_univ_eq_sum_range (fun k => g (8 * c + k)) 8]

/-- The coercion of a real sum is the sum of the coercions. -/
theorem coe_sum {ι : Type*} (s : Finset ι) (q : ι → ℝ) : ((∑ i ∈ s, q i : ℝ) : EReal) = ∑ i ∈ s, (q i : EReal) := by
  classical
  induction s using Finset.induction_on with
  | empty => simp
  | insert a s ha ih => rw [Finset.sum_insert ha, Finset.sum_insert ha, EReal.coe_add, ih]

/-- Over the extended reals, summing the complements `1 - q i` of real numbers gives the count minus their sum. -/
theorem sum_one_sub {ι : Type*} (s : Finset ι) (q : ι → ℝ) :
    ∑ i ∈ s, ((1 : EReal) - (q i : EReal)) = ((s.card : ℝ) : EReal) - ∑ i ∈ s, (q i : EReal) := by
  have h : ∀ i, (1 : EReal) - (q i : EReal) = ((1 - q i : ℝ) : EReal) := fun i => by
    rw [EReal.coe_sub, EReal.coe_one]
  simp only [h]
  rw [← coe_sum, ← coe_sum, ← EReal.coe_sub, Finset.sum_sub_distrib]
  simp

end Cert.LabelCorr
-- ==== Proof.RefValue.lean ====
/-
  The reference program's result is the loss of the row of scores and labels.

  Read entry by entry, the reference computes for position n of the row, with score x and label w:
    * p = 1 / (1 + exp (-x)), which is the sigmoid of x once the pattern 1.0 is read as 1;
    * pos = the label's mask bit as a number, 1 at a positive label and 0 elsewhere;
    * (1 - pos) * exp p, which is exp p at a non-positive label and 0 * exp p = 0 at a positive one;
    * pos * exp (-p), which is exp (-p) at a positive label and 0 elsewhere.
  Each of its four sums is 0 plus the sum over the rank-one index set, which is the sum over the 2^25 positions
  (a rank-one index is its one coordinate); the reshape of the row reads entry n of the row at position n.
  The sum of the complements 1 - pos is the count 2^25 minus the sum of pos, both being sums of real numbers.
  The closing compare, maxima, quotients and select are the loss of the four totals, term for term.
-/
import proofs.«425582_j1709396984423_3_alg».proof.Proof.RefReadP
import proofs.«425582_j1709396984423_3_alg».proof.Proof.Spec
import proofs.«425582_j1709396984423_3_alg».proof.Proof.Consts
import proofs.«425582_j1709396984423_3_alg».proof.Proof.Sums
import Idealize.ShloMosaic.Lib.ValueIdx
import Idealize.ShloMosaic.PureOps.Ideal.Laws

noncomputable section
open Idealize.ShloMosaic
namespace Cert.ReferenceIdeal.RefValue
open Cert.ReferenceIdeal Cert.ReferenceIdeal.ReadP Cert.LabelCorr ValueIdx

/-! ## Positions and rank-one indices -/

/-- A position below 2^25 is a rank-one index, and conversely. -/
def posEquiv : Fin 33554432 ≃ S33554432.Idx where
  toFun n := ix1 n
  invFun j := j 0
  left_inv _ := rfl
  right_inv j := (eq_ix1 j).symm

/-- A sum over the rank-one index set is the sum over the positions. -/
theorem sum_positions {M : Type*} [AddCommMonoid M] (f : S33554432.Idx → M) :
    ∑ j : S33554432.Idx, f j = ∑ n : Fin 33554432, f (ix1 n) :=
  (Equiv.sum_comp posEquiv f).symm

/-- The reshape of the scores reads, at position n, entry n of the row. -/
theorem idx_scores (n : Fin 33554432) : idx_main_v0 (ix1 n) = rowIdx n.val := by
  funext a
  match a with
  | ⟨0, _⟩ => rfl
  | ⟨1, _⟩ => rfl

/-- The reshape of the labels reads, at position n, entry n of the row. -/
theorem idx_labels (n : Fin 33554432) : idx_main_v7 (ix1 n) = rowIdx n.val := by
  funext a
  match a with
  | ⟨0, _⟩ => rfl
  | ⟨1, _⟩ => rfl

/-! ## The mask bit as a number -/

/-- At a positive label the mask bit is the number 1. -/
theorem posTerm_pos {w : BitVec 32} (h : maskBit w = 1#1) : posTerm w = 1 := by
  unfold posTerm
  rw [h]
  show (((1 : ℕ) : ℝ) : EReal) = 1
  rw [Nat.cast_one, EReal.coe_one]

/-- At a non-positive label the mask bit is the number 0. -/
theorem posTerm_nonpos {w : BitVec 32} (h : ¬ maskBit w = 1#1) : posTerm w = 0 := by
  unfold posTerm
  rw [eq_zero_of_ne_one h]
  show (((0 : ℕ) : ℝ) : EReal) = 0
  rw [Nat.cast_zero, EReal.coe_zero]

/-- Over the extended reals 1 - 1 = 0 (both are real). -/
theorem one_sub_one : (1 : EReal) - 1 = 0 := by
  rw [← EReal.coe_one, ← EReal.coe_sub, sub_self, EReal.coe_zero]

/-! ## The reference's vectors at a position -/

/-- The pattern 1.0 broadcast over the positions reads 1 everywhere. -/
theorem one_at_v3 (i : S33554432.Idx) : val_main_v3 (F := Ideal) i = 1 := by
  rw [val_main_v3_apply, val_main_cst_apply, Ideal.ofBits_def, ofBits_one]
theorem one_at_v5 (i : S33554432.Idx) : val_main_v5 (F := Ideal) i = 1 := by
  rw [val_main_v5_apply, val_main_cst_0_apply, Ideal.ofBits_def, ofBits_one]
theorem one_at_v11 (i : S33554432.Idx) : val_main_v11 (F := Ideal) i = 1 := by
  rw [val_main_v11_apply, val_main_cst_1_apply, Ideal.ofBits_def, ofBits_one]

/-- The quotient 1 / (1 + exp (-x)) is the sigmoid of the score at that position. -/
theorem prob_at (x0 : (⟨S1x33554432, .f32⟩ : BufTy).Contents (Elt Ideal)) (i : S33554432.Idx) :
    val_main_v6 (F := Ideal) x0 i = prob (x0 (idx_main_v0 i)) := by
  rw [val_main_v6_apply, val_main_v4_apply, val_main_v2_apply, val_main_v1_apply, val_main_v0_apply,
    one_at_v5, one_at_v3]
  rfl

/-- The converted comparison is the mask bit of the label at that position, as a number. -/
theorem pos_at (x1 : (⟨S1x33554432, .i32⟩ : BufTy).Contents (Elt Ideal)) (i : S33554432.Idx) :
    val_main_v10 (F := Ideal) x1 i = posTerm (x1 (idx_main_v7 i)) := by
  rw [val_main_v10_apply, val_main_v9_apply, val_main_v7_apply, val_main_v8_apply, val_main_c_apply]
  rfl

/-- The complement is 1 minus the mask bit. -/
theorem neg_at (x1 : (⟨S1x33554432, .i32⟩ : BufTy).Contents (Elt Ideal)) (i : S33554432.Idx) :
    val_main_v12 (F := Ideal) x1 i = 1 - posTerm (x1 (idx_main_v7 i)) := by
  rw [val_main_v12_apply, one_at_v11, pos_at]
  rfl

/-- The complement times exp p is exp p at a non-positive label and 0 at a positive one. -/
theorem negExp_at (x0 : (⟨S1x33554432, .f32⟩ : BufTy).Contents (Elt Ideal)) (x1 : (⟨S1x33554432, .i32⟩ : BufTy).Contents (Elt Ideal))
    (i : S33554432.Idx) :
    val_main_v16 (F := Ideal) x0 x1 i = negExp (x0 (idx_main_v0 i)) (x1 (idx_main_v7 i)) := by
  rw [val_main_v16_apply, val_main_v15_apply, neg_at, prob_at]
  show (1 - posTerm (x1 (idx_main_v7 i))) * Ideal.exp (prob (x0 (idx_main_v0 i))) = _
  unfold negExp
  by_cases h : maskBit (x1 (idx_main_v7 i)) = 1#1
  · rw [if_pos h, posTerm_pos h, one_sub_one, zero_mul]
  · rw [if_neg h, posTerm_nonpos h, sub_zero, one_mul]

/-- The mask bit times exp (-p) is exp (-p) at a positive label and 0 elsewhere. -/
theorem posExp_at (x0 : (⟨S1x33554432, .f32⟩ : BufTy).Contents (Elt Ideal)) (x1 : (⟨S1x33554432, .i32⟩ : BufTy).Contents (Elt Ideal))
    (i : S33554432.Idx) :
    val_main_v20 (F := Ideal) x0 x1 i = posExp (x0 (idx_main_v0 i)) (x1 (idx_main_v7 i)) := by
  rw [val_main_v20_apply, val_main_v19_apply, val_main_v18_apply, pos_at, prob_at]
  show posTerm (x1 (idx_main_v7 i)) * Ideal.exp (-(prob (x0 (idx_main_v0 i)))) = _
  unfold posExp
  by_cases h : maskBit (x1 (idx_main_v7 i)) = 1#1
  · rw [if_pos h, posTerm_pos h, one_mul]
  · rw [if_neg h, posTerm_nonpos h, zero_mul]

/-! ## The four totals -/

/-- The sum of the mask bits, from 0, is the number of positive labels. -/
theorem pos_total (x1 : (⟨S1x33554432, .i32⟩ : BufTy).Contents (Elt Ideal)) (i : S_.Idx) :
    val_main_v13 (F := Ideal) x1 i = tPos x1 := by
  rw [val_main_v13_apply, val_main_cst_2_apply, Ideal.ofBits_def, ofBits_zero, zero_add, sum_positions]
  unfold tPos
  refine Finset.sum_congr rfl fun n _ => ?_
  rw [pos_at, idx_labels]

/-- The sum of the complements, from 0, is the count 2^25 minus the number of positive labels. -/
theorem neg_total (x1 : (⟨S1x33554432, .i32⟩ : BufTy).Contents (Elt Ideal)) (i : S_.Idx) :
    val_main_v14 (F := Ideal) x1 i = ((33554432 : ℝ) : EReal) - tPos x1 := by
  rw [val_main_v14_apply, val_main_cst_3_apply, Ideal.ofBits_def, ofBits_zero, zero_add, sum_positions]
  have h := sum_one_sub (Finset.univ : Finset (Fin 33554432))
    (fun n => (((maskBit (x1 (rowIdx n.val))).toNat : ℝ)))
  rw [Finset.card_univ, Fintype.card_fin, Nat.cast_ofNat] at h
  refine Eq.trans (Finset.sum_congr rfl fun n _ => ?_) h
  rw [neg_at, idx_labels]
  rfl

/-- The sum of (1 - pos) * exp p, from 0, is the total of exp p over the non-positive labels. -/
theorem negExp_total (x0 : (⟨S1x33554432, .f32⟩ : BufTy).Contents (Elt Ideal)) (x1 : (⟨S1x33554432, .i32⟩ : BufTy).Contents (Elt Ideal))
    (i : S_.Idx) : val_main_v17 (F := Ideal) x0 x1 i = tNegExp x0 x1 := by
  rw [val_main_v17_apply, val_main_cst_4_apply, Ideal.ofBits_def, ofBits_zero, zero_add, sum_positions]
  unfold tNegExp
  refine Finset.sum_congr rfl fun n _ => ?_
  rw [negExp_at, idx_scores, idx_labels]

/-- The sum of pos * exp (-p), from 0, is the total of exp (-p) over the positive labels. -/
theorem posExp_total (x0 : (⟨S1x33554432, .f32⟩ : BufTy).Contents (Elt Ideal)) (x1 : (⟨S1x33554432, .i32⟩ : BufTy).Contents (Elt Ideal))
    (i : S_.Idx) : val_main_v21 (F := Ideal) x0 x1 i = tPosExp x0 x1 := by
  rw [val_main_v21_apply, val_main_cst_5_apply, Ideal.ofBits_def, ofBits_zero, zero_add, sum_positions]
  unfold tPosExp
  refine Finset.sum_congr rfl fun n _ => ?_
  rw [posExp_at, idx_scores, idx_labels]

/-! ## The closing scalar stages -/

/-- The reference's result, at its one index, is the loss of the row. -/
theorem ref_value (x0 : (⟨S1x33554432, .f32⟩ : BufTy).Contents (Elt Ideal)) (x1 : (⟨S1x33554432, .i32⟩ : BufTy).Contents (Elt Ideal)) :
    val_main_v29 (F := Ideal) x0 x1 = fun _ => lossOf x0 x1 := by
  funext i
  rw [val_main_v29_apply, val_main_v28_apply, val_main_v27_apply, val_main_v26_apply, val_main_v25_apply,
    val_main_v24_apply, val_main_v23_apply, val_main_v22_apply, val_main_cst_6_apply, val_main_cst_7_apply,
    val_main_cst_8_apply, pos_total, neg_total, negExp_total, posExp_total]
  simp only [Ideal.ofBits_def, ofBits_one, ofBits_zero]
  rfl

end Cert.ReferenceIdeal.RefValue
end
-- ==== Proof.Body.lean ====
/-
  What one run of the kernel body leaves in the output block, as a value.

  The body walks its staged 2048 × 1024 blocks of scores and labels in eight chunks of 256 rows; each trip of that
  loop adds the chunk's three totals (`k0_pay7`, `k0_pay8`, `k0_pay9` of the chunk) to a carried triple that starts
  at zero. After the loop the body adds to the output block, lane by lane, the carried totals (`k0_pay10`): at a grid
  point whose second coordinate is zero it first resets the block to zero (`k0_pay1`), elsewhere it adds to what
  the point before left.
-/
import proofs.«425582_j1709396984423_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- The loop makes eight trips. -/
theorem trips_eq : k0_t1_loop.trips = 8 := by decide

/-- Chunk `k` of a staged block: its rows `256 k … 256 k + 255`, all 1024 lanes. -/
abbrev chunk {e : EltTy} (x : Vec F S2048x1024 e) (k : Fin k0_t1_loop.trips) : Vec F S256x1024 e :=
  View.ld x (Rect.unit (s := S2048x1024) (k0_off1 k) S256x1024.size (k0_off1_inb k))

/-- The three carried totals. -/
abbrev Triple (F : FTy → Type) [FloatOps F] := FVec F S1x1 .f32 × FVec F S1x1 .f32 × FVec F S1x1 .f32

/-- One trip: each carried total plus the chunk's. -/
def tripF (x0 : Vec F S2048x1024 .f32) (x1 : Vec F S2048x1024 .i32) (k : Fin k0_t1_loop.trips) (acc : Triple F) : Triple F :=
  (k0_pay7 acc.1 (chunk x1 k), k0_pay8 acc.2.1 (chunk x0 k) (chunk x1 k), k0_pay9 acc.2.2 (chunk x0 k) (chunk x1 k))

/-- One trip of the loop, as the frame's loop invariant carries it, is that function: the trip's two loads read chunk `k`
    of the staged blocks. -/
theorem trip_eq (c : Dev nD) (i : grid0.Coords) (a2 : Memref sig .tc .vmem S2048x1024 .f32) (h2 : a2.IsWhole)
    (a3 : Memref sig .tc .vmem S2048x1024 .i32) (h3 : a3.IsWhole) (a4 : Memref sig .tc .vmem S8x128 .f32) (h4 : a4.IsWhole)
    (x0 : Vec F S2048x1024 .f32) (x1 : Vec F S2048x1024 .i32) (k : Fin k0_t1_loop.trips) (acc : Triple F) :
    tripR_k0_t1 (F := F) Variants.none c none i a2 h2 a3 h3 a4 h4 (h2.unread x0) (h3.unread x1) k acc = tripF x0 x1 k acc := by
  unfold tripR_k0_t1
  unfold trip_k0_t1
  dsimp only
  simp only [View.readAt_eq_ld, h2.read_unread, h3.read_unread]
  rfl

/-- The triple carried into trip `n`: zeros, then one trip after another. -/
def carried (x0 : Vec F S2048x1024 .f32) (x1 : Vec F S2048x1024 .i32) : ℕ → Triple F
  | 0 => (k0_pay2, k0_pay3, k0_pay4)
  | n + 1 => if h : n < k0_t1_loop.trips then tripF x0 x1 ⟨n, h⟩ (carried x0 x1 n) else carried x0 x1 n

/-- The loop's carried state in the frame's loop invariant is that triple. -/
theorem st_eq_carried (c : Dev nD) (i : grid0.Coords) (a2 : Memref sig .tc .vmem S2048x1024 .f32) (h2 : a2.IsWhole)
    (a3 : Memref sig .tc .vmem S2048x1024 .i32) (h3 : a3.IsWhole) (a4 : Memref sig .tc .vmem S8x128 .f32) (h4 : a4.IsWhole)
    (x0 : Vec F S2048x1024 .f32) (x1 : Vec F S2048x1024 .i32) (n : ℕ) :
    st_k0_t1 (F := F) Variants.none c none i a2 h2 a3 h3 a4 h4 (h2.unread x0) (h3.unread x1) (k0_pay2, k0_pay3, k0_pay4) n
      = carried x0 x1 n := by
  induction n with
  | zero => rfl
  | succ n ih =>
    rw [st_k0_t1.eq_2, carried]
    unfold st_k0_t1Step
    by_cases h : n < k0_t1_loop.trips
    · rw [dif_pos h, dif_pos h, trip_eq, ih]
    · rw [dif_neg h, dif_neg h, ih]

/-- What the loop yields: the triple after its eight trips. -/
abbrev totals (x0 : Vec F S2048x1024 .f32) (x1 : Vec F S2048x1024 .i32) : Triple F := carried x0 x1 8

/-- Away from a group's first point the body leaves, over the block `xo` the point before left, `xo` plus the lane-wise
    totals of this point's staged blocks. -/
theorem out_B (c : Dev nD) (i : grid0.Coords) (a2 : Memref sig .tc .vmem S2048x1024 .f32) (h2 : a2.IsWhole)
    (a3 : Memref sig .tc .vmem S2048x1024 .i32) (h3 : a3.IsWhole) (a4 : Memref sig .tc .vmem S8x128 .f32) (h4 : a4.IsWhole)
    (hc : ¬cond0_0 i) (x0 : Vec F S2048x1024 .f32) (x1 : Vec F S2048x1024 .i32) (xo : Vec F S8x128 .f32) :
    out0_B_2 c i a2 h2 a3 h3 a4 h4 hc x0 x1 xo
      = k0_pay10 (totals x0 x1).1 (totals x0 x1).2.1 (totals x0 x1).2.2 xo := by
  unfold out0_B_2
  rw [View.read_writes_eq_canon _ _ _ (cover0_B_2 c i a2 h2 a3 h3 a4 h4 hc x0 x1 xo)]
  unfold kernelRun0_B
  dsimp only
  rw [View.canon_unit_zero hz]
  simp only [View.readAt_eq_ld, h4.read_unread, View.ld_unit_zero (S := S8x128) hz]
  rw [st_eq_carried c i a2 h2 a3 h3 a4 h4 x0 x1]
  rfl

/-- At a group's first point the body resets the block to zero and leaves zero plus the lane-wise totals. -/
theorem out_A (c : Dev nD) (i : grid0.Coords) (a2 : Memref sig .tc .vmem S2048x1024 .f32) (h2 : a2.IsWhole)
    (a3 : Memref sig .tc .vmem S2048x1024 .i32) (h3 : a3.IsWhole) (a4 : Memref sig .tc .vmem S8x128 .f32) (h4 : a4.IsWhole)
    (hc : cond0_0 i) (x0 : Vec F S2048x1024 .f32) (x1 : Vec F S2048x1024 .i32) :
    out0_A_2 c i a2 h2 a3 h3 a4 h4 hc x0 x1
      = k0_pay10 (totals x0 x1).1 (totals x0 x1).2.1 (totals x0 x1).2.2 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x128) hz, View.readCov_unit_zero (S := S8x128) _ hz]
  rw [st_eq_carried c i a2 h2 a3 h3 a4 h4 x0 x1]
  rfl

end Cert.KernelIdeal.Body

end
-- ==== Proof.Blocks.lean ====
/-
  Where the kernel's blocks sit in the arguments.

  @main reshapes the row of 2^25 scores (and of labels) to 32768 rows of 1024 lanes: entry (R, l) of the reshaped
  array is entry `1024 R + l` of the row. The pipeline hands the body, at grid point `t` (of 16), the block of rows
  `2048 t … 2048 t + 2047`; the body's loop reads chunk `k` (of 8) of that block, rows `256 k … 256 k + 255` of it.
  So lane `l` of row `r` of chunk `k` at point `t` is entry `((2048 t + 256 k + r) · 1024 + l` of the row.
-/
import proofs.«425582_j1709396984423_3_alg».proof.Proof.Gen.KernelIdeal.Frame
import proofs.«425582_j1709396984423_3_alg».proof.Proof.Body
import proofs.«425582_j1709396984423_3_alg».proof.Proof.Spec
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem

namespace Cert.KernelIdeal.Blocks

open Cert.KernelIdeal Cert.KernelIdeal.Gen Cert.LabelCorr ValueIdx

variable {F : FTy → Type} [FloatOps F]
variable (m : (ℓ : Loc nD τ sig) → Buf (Elt F) ℓ)

/-- The staged blocks at a point and the reshaped arrays, at their literal types. -/
abbrev xblk (c : Dev nD) (t : Fin cfg0.N) : Vec F S2048x1024 .f32 := iblk m c 0 t
abbrev yblk (c : Dev nD) (t : Fin cfg0.N) : Vec F S2048x1024 .i32 := iblk m c 1 t
abbrev xarr (c : Dev nD) : Vec F S32768x1024 .f32 := V m c main_v0
abbrev yarr (c : Dev nD) : Vec F S32768x1024 .i32 := V m c main_v1

/-- Both input windows' block index at point `t` is `(t, 0)`. -/
theorem idx_facts : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- Row `r` of the block at point `t`, as a row of the reshaped array. -/
def rowOf (t : Fin cfg0.N) (r : Fin 2048) : Fin 32768 :=
  ⟨2048 * t.val + r.val, by have := t.isLt; have hN : cfg0.N = 16 := N_0; have := r.isLt; omega⟩

theorem xblk_apply (c : Dev nD) (t : Fin cfg0.N) (r : Fin 2048) (l : Fin 1024) :
    xblk m c t (ix2 r l) = xarr m c (ix2 (rowOf t r) l) := by
  show iblk m c 0 t (ix2 r l) = V m c main_v0 _
  unfold iblk
  rw [View.read_apply]
  show V m c main_v0 _ = V m c main_v0 _
  congr 1
  funext a
  apply Fin.ext
  match a with
  | ⟨0, _⟩ => show win0_0.index t 0 * 2048 + 1 * r.val = 2048 * t.val + r.val; rw [(idx_facts t).1]; omega
  | ⟨1, _⟩ => show win0_0.index t 1 * 1024 + 1 * l.val = l.val; rw [(idx_facts t).2.1]; omega

theorem yblk_apply (c : Dev nD) (t : Fin cfg0.N) (r : Fin 2048) (l : Fin 1024) :
    yblk m c t (ix2 r l) = yarr m c (ix2 (rowOf t r) l) := by
  show iblk m c 1 t (ix2 r l) = V m c main_v1 _
  unfold iblk
  rw [View.read_apply]
  show V m c main_v1 _ = V m c main_v1 _
  congr 1
  funext a
  apply Fin.ext
  match a with
  | ⟨0, _⟩ => show win0_1.index t 0 * 2048 + 1 * r.val = 2048 * t.val + r.val; rw [(idx_facts t).2.2.1]; omega
  | ⟨1, _⟩ => show win0_1.index t 1 * 1024 + 1 * l.val = l.val; rw [(idx_facts t).2.2.2]; omega

/-- The region finds in `main_v0` the reshape of the scores, in `main_v1` the reshape of the labels. -/
theorem xarr_eq (c : Dev nD) :
    xarr m c = shapeCast S32768x1024 (m ((c : Thread nD τ).loc main_arg0)) shapeCasts_S1x33554432_S32768x1024 := by
  show StableHlo.after hostOps0 (fun b => m (c, b)) (Proc.devRef .tc main_v0) = _
  after_results
  rfl

theorem yarr_eq (c : Dev nD) :
    yarr m c = shapeCast S32768x1024 (m ((c : Thread nD τ).loc main_arg1)) shapeCasts_S1x33554432_S32768x1024 := by
  show StableHlo.after hostOps0 (fun b => m (c, b)) (Proc.devRef .tc main_v1) = _
  after_results
  rfl

/-- Entry `(R, l)` of the reshape is entry `1024 R + l` of the row. -/
theorem reshape_apply {α : Type} (x : S1x33554432.Idx → α) (R : Fin 32768) (l : Fin 1024) :
    shapeCast S32768x1024 x shapeCasts_S1x33554432_S32768x1024 (ix2 R l) = x (rowIdx (R.val * 1024 + l.val)) := by
  refine shapeCast_apply x shapeCasts_S1x33554432_S32768x1024 (ix2 R l) (rowIdx (R.val * 1024 + l.val)) ?_
  rewrite [Shape.rowMajor_val_two, Shape.rowMajor_val_two]
  have hR := R.isLt
  have hl := l.isLt
  show 0 * 33554432 + (R.val * 1024 + l.val) % 33554432 = R.val * 1024 + l.val
  omega

/-- Lane `l` of row `r` of chunk `k` of a staged block is lane `l` of its row `256 k + r`. -/
def chunkRow (k : Fin k0_t1_loop.trips) (r : Fin 256) : Fin 2048 :=
  ⟨256 * k.val + r.val, by have := k.isLt; have h8 : k0_t1_loop.trips = 8 := Body.trips_eq; have := r.isLt; omega⟩

theorem chunk_apply {e : EltTy} (x : Vec F S2048x1024 e) (k : Fin k0_t1_loop.trips) (r : Fin 256) (l : Fin 1024) :
    Body.chunk x k (ix2 r l) = x (ix2 (chunkRow k r) l) := by
  show x _ = x _
  congr 1
  funext a
  apply Fin.ext
  match a with
  | ⟨0, _⟩ => show (k0_off1 k) 0 + 1 * r.val = 256 * k.val + r.val; rw [k0_off1_eq]; show 256 * k.val + 1 * r.val = _; omega
  | ⟨1, _⟩ => show (k0_off1 k) 1 + 1 * l.val = l.val; rw [k0_off1_eq]; show 0 + 1 * l.val = _; omega

end Cert.KernelIdeal.Blocks

end
-- ==== Proof.Final.lean ====
/-
  The output array after the run.

  The output window's block index is the first grid coordinate: the eight points `8 q … 8 q + 7` of group `q` (of 2) all
  work on block `q` (rows `8 q … 8 q + 7` of the 16 × 128 array), and the block is written back once, after the group's
  last point. So rows `8 q … 8 q + 7` of the array end holding what the body left in the staging block at point `8 q + 7`.
-/
import proofs.«425582_j1709396984423_3_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Final

open Cert.KernelIdeal Cert.KernelIdeal.Gen ValueIdx

variable {F : FTy → Type} [FloatOps F]
variable (m : (ℓ : Loc nD τ sig) → Buf (Elt F) ℓ) (ρ : Dev nD → PrngReg)

/-- What the staging block holds after the last point of group `q`. -/
def lastBlk (c : Dev nD) (q : Fin 2) : Vec F S8x128 .f32 :=
  outsAt0 m c (8 * q.val + 7) (by have := q.isLt; rw [show cfg0.N = 16 from N_0]; omega)

/-- The output array after the run: rows `8 q … 8 q + 7` are group `q`'s last block. -/
def outArr (c : Dev nD) : Vec F S16x128 .f32 := fun i =>
  lastBlk m c ⟨(i 0).val / 8, by have : (i 0).val < 16 := (i 0).isLt; omega⟩
    (ix2 (⟨(i 0).val % 8, Nat.mod_lt _ (by norm_num)⟩ : Fin 8) (i 1))

/-- The output window's block index at point `t` is `(t / 8, 0)`. -/
theorem idx_facts2 : ∀ t : Fin cfg0.N, win0_2.index t 0 = t.val / 8 ∧ win0_2.index t 1 = 0 :=
  (by decide +kernel : ∀ t : Fin grid0.N, win0_2.index t 0 = t.val / 8 ∧ win0_2.index t 1 = 0)

/-- What a flushing point writes back is its block of `outArr`. -/
theorem flushed_eq (c : Dev nD) (t : Fin cfg0.N) (hf : (cfg0.win 2).flush t = true) :
    (dats m 0 c).flushed 2 t = ((cfg0.win 2).blk t).view.read (Elt F) (outArr m c) := by
  have hN : cfg0.N = 16 := N_0
  have h7 : t.val % 8 = 7 := (flush0_2 t).mp hf
  have hlt : t.val < 16 := hN ▸ t.isLt
  show (cfg0.win 2).cut (grid0.coords t) ((dats m 0 c).after 2 t) = _
  rw [after0_2]
  funext j
  show outsAt0 m c t.val t.isLt j = outArr m c (((cfg0.win 2).blk t).view.emb j)
  have hj0 : (j 0).val < 8 := (j 0).isLt
  have e0 : ((((cfg0.win 2).blk t).view.emb j) 0).val = t.val / 8 * 8 + (j 0).val := by
    show win0_2.index t 0 * 8 + 1 * (j 0).val = _
    rw [(idx_facts2 t).1]; omega
  have e1 : (((cfg0.win 2).blk t).view.emb j) 1 = j 1 := by
    apply Fin.ext
    show win0_2.index t 1 * 128 + 1 * (j 1).val = (j 1).val
    rw [(idx_facts2 t).2]; omega
  unfold outArr lastBlk
  have hq' : 8 * (((((cfg0.win 2).blk t).view.emb j) 0).val / 8) + 7 = t.val := by rw [e0]; omega
  have hs : (((((cfg0.win 2).blk t).view.emb j) 0).val % 8) = (j 0).val := by rw [e0]; omega
  have hidx : (ix2 (⟨((((cfg0.win 2).blk t).view.emb j) 0).val % 8, Nat.mod_lt _ (by norm_num)⟩ : Fin 8) ((((cfg0.win 2).blk t).view.emb j) 1)
      : S8x128.Idx) = j := by
    funext a
    match a with
    | ⟨0, _⟩ => exact Fin.ext hs
    | ⟨1, _⟩ => exact e1
  rw [hidx]
  congr 1
  exact hq'.symm

/-- Every row of the array is under the block of a flushing point. -/
theorem cover (i : S16x128.Idx) : ∃ t : Fin cfg0.N, (cfg0.win 2).flush t = true ∧ i ∈ ((cfg0.win 2).blk t).view.set := by
  have hN : cfg0.N = 16 := N_0
  have hi0 : (i 0).val < 16 := (i 0).isLt
  have hi1 : (i 1).val < 128 := (i 1).isLt
  have ht : 8 * ((i 0).val / 8) + 7 < cfg0.N := by rw [hN]; omega
  refine ⟨⟨8 * ((i 0).val / 8) + 7, ht⟩, (flush0_2 _).mpr (by show (8 * ((i 0).val / 8) + 7) % 8 = 7; omega), ?_⟩
  show i ∈ ((View.whole main_v2).slice (win0_2.rect (⟨8 * ((i 0).val / 8) + 7, ht⟩ : Fin cfg0.N))).set
  rw [View.set_slice_whole, Rect.mem_set_unit]
  intro a
  match a with
  | ⟨0, _⟩ =>
    show win0_2.index (⟨8 * ((i 0).val / 8) + 7, ht⟩ : Fin cfg0.N) 0 * 8 ≤ (i 0).val
      ∧ (i 0).val < win0_2.index (⟨8 * ((i 0).val / 8) + 7, ht⟩ : Fin cfg0.N) 0 * 8 + 8
    rw [(idx_facts2 (⟨8 * ((i 0).val / 8) + 7, ht⟩ : Fin cfg0.N)).1]
    show (8 * ((i 0).val / 8) + 7) / 8 * 8 ≤ (i 0).val ∧ (i 0).val < (8 * ((i 0).val / 8) + 7) / 8 * 8 + 8
    omega
  | ⟨1, _⟩ =>
    show win0_2.index (⟨8 * ((i 0).val / 8) + 7, ht⟩ : Fin cfg0.N) 1 * 128 ≤ (i 1).val
      ∧ (i 1).val < win0_2.index (⟨8 * ((i 0).val / 8) + 7, ht⟩ : Fin cfg0.N) 1 * 128 + 128
    rw [(idx_facts2 (⟨8 * ((i 0).val / 8) + 7, ht⟩ : Fin cfg0.N)).2]
    omega

/-- The output array ends holding `outArr`. -/
theorem final_out (c : Dev nD) : (dats m 0 c).arrAt 2 cfg0.N = outArr m c :=
  (dats m 0 c).arrAt_eq_of_cover 2 (outArr m c) (flushed_eq m c) (cover)

end Cert.KernelIdeal.Final

end
-- ==== Proof.Payload.lean ====
/-
  The kernel body's arithmetic, read at one index, over the extended reals.

  A chunk is 256 rows by 1024 lanes of scores `x` and labels `y`. The body reduces a chunk in two steps: a sum
  over the 1024 lanes of each row, then a sum of the 256 row sums; each sum starts from `+0.0`, which is `0`, and
  `0 + a = a`. So a chunk's contribution is the double sum over rows and lanes of the summand, and the three carried
  [1,1] totals grow by
    * the number of positive labels of the chunk                      (the mask bit, widened and read as a number),
    * `exp p` summed over the non-positive labels                     (`p` the sigmoid of the score),
    * `exp (0 - p) = exp (-p)` summed over the positive labels.
  At the end the three totals are added into the [8,128] output block, on every sublane: the first at lane 0, the
  second at lane 1, the third at lane 2 (each a select of the lane index against 0, 1, 2, zero elsewhere, and
  `a + 0 = a`). The initial block and the initial totals are all zero.
-/
import proofs.«425582_j1709396984423_3_alg».proof.Proof.Gen.KernelIdeal.Skeleton
import proofs.«425582_j1709396984423_3_alg».proof.Proof.Spec
import proofs.«425582_j1709396984423_3_alg».proof.Proof.Consts
import Idealize.ShloMosaic.Lib.ValueIdx
import Idealize.ShloMosaic.Lib.Pipeline.Value
import Idealize.ShloMosaic.PureOps.Ideal.Laws

noncomputable section
open Idealize.ShloMosaic
namespace Cert.KernelIdeal.Payload
open Cert.KernelIdeal Cert.KernelIdeal.Gen Cert.LabelCorr ValueIdx

/-! ## The two-step sum of a chunk -/

/-- Row `r` with lane `l` put back on the reduced axis is the position `(r, l)`. -/
theorem lift_row (r : Fin 256) (l : Fin 1024) : reduces_S256x1024_S256.lift (ix1 r) l = ix2 r l := by
  funext c
  match c with
  | ⟨0, _⟩ => rfl
  | ⟨1, _⟩ => rfl

/-- The lane sums of the rows, summed over the rows, are the double sum over rows and lanes. -/
theorem chunk_total (f : FVec Ideal S256x1024 .f32) (j : S1x1.Idx) :
    shapeCast S1x1 (multiReduction .add [0] S1
        (shapeCast S256x1 (multiReduction .add [1] S256 f 0x00000000#32 reduces_S256x1024_S256 (.inl rfl) rfl)
          shapeCasts_S256_S256x1) 0x00000000#32 reduces_S256x1_S1 (.inl rfl) rfl) shapeCasts_S1_S1x1 j
      = ∑ r : Fin 256, ∑ l : Fin 1024, f (ix2 r l) := by
  refine (shapeCast_apply _ shapeCasts_S1_S1x1 j (ix1 (0 : Fin 1)) ?_).trans ?_
  · rw [Shape.rowMajor_val_one, Shape.rowMajor_val_two]
    have h0 := idx2_lt0 j
    have h1 := idx2_lt1 j
    show 0 = (j 0).val * 1 + (j 1).val
    omega
  refine (Ideal.multiReduction_add_total _ _ reduces_S256x1_S1 (fun b => ?_) (.inl rfl) rfl _).trans ?_
  · match b with
    | ⟨0, _⟩ => rfl
  rw [sum_idx2]
  refine Finset.sum_congr rfl fun r _ => ?_
  rw [Fin.sum_univ_one]
  refine (shapeCast_apply _ shapeCasts_S256_S256x1 (ix2 r (0 : Fin 1)) (ix1 r) ?_).trans ?_
  · rw [Shape.rowMajor_val_one, Shape.rowMajor_val_two]
    show r.val = r.val * 1 + 0
    omega
  refine (Ideal.multiReduction_add_single f _ reduces_S256x1024_S256 (.inl rfl) rfl (ix1 r)).trans ?_
  refine Finset.sum_congr rfl fun l _ => ?_
  exact congrArg f (lift_row r l)

/-! ## The summands at a position -/

/-- The label's comparison against zero at a position is the mask bit of the label there. -/
theorem mask_read (y : Vec Ideal S256x1024 .i32) (i : S256x1024.Idx) : k0_pay6 (F := Ideal) y i = maskBit (y i) := by
  unfold k0_pay6
  show IntOp.cmpi .sgt (shapeCast S256x1024 y shapeCasts_S256x1024_S256x1024 i) 0#32 = _
  rw [shapeCast_self]
  rfl

/-- The sigmoid of the scores at a position is the sigmoid of the score there. -/
theorem prob_read (x : Vec Ideal S256x1024 .f32) (i : S256x1024.Idx) : k0_pay5 (F := Ideal) x i = prob (x i) := by
  unfold k0_pay5
  show Ideal.logistic (shapeCast S256x1024 x shapeCasts_S256x1024_S256x1024 i) = _
  rw [shapeCast_self]
  rfl

/-- A bit widened to 32 bits with zeros and read as a signed integer is the bit read as a natural number. -/
theorem toInt_setWidth_bit (b : BitVec 1) : (((b.setWidth 32).toInt : ℝ)) = ((b.toNat : ℝ)) := by
  have h : ∀ c : BitVec 1, (c.setWidth 32).toInt = (c.toNat : ℤ) := by decide
  rw [h b, Int.cast_natCast]

/-- The widened mask bit as a number: `1` at a positive label, else `0`. -/
theorem posTerm_read (y : Vec Ideal S256x1024 .i32) (i : S256x1024.Idx) :
    (sitofp .f32 (extui 32 (k0_pay6 (F := Ideal) y) natLt_1_32) : FVec Ideal S256x1024 .f32) i = posTerm (y i) := by
  show (((((k0_pay6 (F := Ideal) y i).setWidth 32).toInt : ℝ)) : EReal) = _
  rw [mask_read, toInt_setWidth_bit]
  rfl

/-- Zero at a positive label, else `exp p`. -/
theorem negExp_read (x : Vec Ideal S256x1024 .f32) (y : Vec Ideal S256x1024 .i32) (i : S256x1024.Idx) :
    (select (k0_pay6 (F := Ideal) y) (broadcast S256x1024 (Scalar.ofBits (F := Ideal) .f32 0x00000000#32))
        (exp (k0_pay5 (F := Ideal) x)) : FVec Ideal S256x1024 .f32) i = negExp (x i) (y i) := by
  show Scalar.select (k0_pay6 (F := Ideal) y i) (Ideal.ofBits .f32 0x00000000#32) (Ideal.exp (k0_pay5 (F := Ideal) x i)) = _
  rw [mask_read, prob_read, ofBits_zero]
  rfl

/-- `exp (0 - p) = exp (-p)` at a positive label, else zero. -/
theorem posExp_read (x : Vec Ideal S256x1024 .f32) (y : Vec Ideal S256x1024 .i32) (i : S256x1024.Idx) :
    (select (k0_pay6 (F := Ideal) y)
        (exp (subf (broadcast S256x1024 (Scalar.ofBits (F := Ideal) .f32 0x00000000#32)) (k0_pay5 (F := Ideal) x)))
        (broadcast S256x1024 (Scalar.ofBits (F := Ideal) .f32 0x00000000#32)) : FVec Ideal S256x1024 .f32) i
      = posExp (x i) (y i) := by
  show Scalar.select (k0_pay6 (F := Ideal) y i)
      (Ideal.exp (Ideal.ofBits .f32 0x00000000#32 - k0_pay5 (F := Ideal) x i)) (Ideal.ofBits .f32 0x00000000#32) = _
  rw [mask_read, prob_read, ofBits_zero, zero_sub]
  rfl

/-! ## The three carried totals after a chunk -/

theorem pay7_apply (a : FVec Ideal S1x1 .f32) (y : Vec Ideal S256x1024 .i32) (j : S1x1.Idx) :
    k0_pay7 (F := Ideal) a y j = a j + ∑ r : Fin 256, ∑ l : Fin 1024, posTerm (y (ix2 r l)) := by
  unfold k0_pay7
  refine (addf_apply _ _ j).trans ?_
  rw [chunk_total]
  refine congrArg (a j + ·) ?_
  exact Finset.sum_congr rfl fun r _ => Finset.sum_congr rfl fun l _ => posTerm_read y (ix2 r l)

theorem pay8_apply (a : FVec Ideal S1x1 .f32) (x : Vec Ideal S256x1024 .f32) (y : Vec Ideal S256x1024 .i32) (j : S1x1.Idx) :
    k0_pay8 (F := Ideal) a x y j = a j + ∑ r : Fin 256, ∑ l : Fin 1024, negExp (x (ix2 r l)) (y (ix2 r l)) := by
  unfold k0_pay8
  refine (addf_apply _ _ j).trans ?_
  rw [chunk_total]
  refine congrArg (a j + ·) ?_
  exact Finset.sum_congr rfl fun r _ => Finset.sum_congr rfl fun l _ => negExp_read x y (ix2 r l)

theorem pay9_apply (a : FVec Ideal S1x1 .f32) (x : Vec Ideal S256x1024 .f32) (y : Vec Ideal S256x1024 .i32) (j : S1x1.Idx) :
    k0_pay9 (F := Ideal) a x y j = a j + ∑ r : Fin 256, ∑ l : Fin 1024, posExp (x (ix2 r l)) (y (ix2 r l)) := by
  unfold k0_pay9
  refine (addf_apply _ _ j).trans ?_
  rw [chunk_total]
  refine congrArg (a j + ·) ?_
  exact Finset.sum_congr rfl fun r _ => Finset.sum_congr rfl fun l _ => posExp_read x y (ix2 r l)

/-! ## The zero block and the zero totals -/

theorem pay1_apply (j : S8x128.Idx) : k0_pay1 (F := Ideal) j = 0 := ofBits_zero
theorem pay2_apply (j : S1x1.Idx) : k0_pay2 (F := Ideal) j = 0 := ofBits_zero
theorem pay3_apply (j : S1x1.Idx) : k0_pay3 (F := Ideal) j = 0 := ofBits_zero
theorem pay4_apply (j : S1x1.Idx) : k0_pay4 (F := Ideal) j = 0 := ofBits_zero

/-! ## The totals added into the output block -/

/-- One of the three lane terms at sublane `s`, lane `l`: the total where the lane index is `c`, else zero. -/
theorem lane_term (t : FVec Ideal S1x1 .f32) (c : BitVec 32) (s : Fin 8) (l : Fin 128) :
    (select (cmpi .eq (iota .tc S8x128 32 [1] iota_S8x128_d1_w32) (broadcast S8x128 c))
        (broadcastTo S8x128 (shapeCast S1x1 t shapeCasts_S1x1_S1x1) broadcasts_S1x1_S8x128)
        (broadcast S8x128 (Scalar.ofBits (F := Ideal) .f32 0x00000000#32)) : FVec Ideal S8x128 .f32) (ix2 s l)
      = Scalar.select (IntOp.cmpi .eq (BitVec.ofNat 32 l.val) c) (t (ix2 (0 : Fin 1) (0 : Fin 1))) 0 := by
  refine (select_apply _ _ _ _).trans ?_
  have hi : cmpi .eq (iota .tc S8x128 32 [1] iota_S8x128_d1_w32) (broadcast S8x128 c) (ix2 s l)
      = IntOp.cmpi .eq (BitVec.ofNat 32 l.val) c := by
    show IntOp.cmpi .eq (iota .tc S8x128 32 [1] iota_S8x128_d1_w32 (ix2 s l)) c = _
    rw [iota_single_apply]
  have hb : broadcastTo S8x128 (shapeCast S1x1 t shapeCasts_S1x1_S1x1) broadcasts_S1x1_S8x128 (ix2 s l)
      = t (ix2 (0 : Fin 1) (0 : Fin 1)) := by
    rw [shapeCast_self]
    exact broadcastTo_apply t broadcasts_S1x1_S8x128 (ix2 s l) (ix2 (0 : Fin 1) (0 : Fin 1)) fun a => by
      match a with
      | ⟨0, _⟩ => rfl
      | ⟨1, _⟩ => rfl
  rw [hi, hb]
  show Scalar.select _ _ (Ideal.ofBits .f32 0x00000000#32) = _
  rw [ofBits_zero]

/-- The updated block at sublane `s`, lane `l`: what was there plus the three lane terms. -/
theorem pay10_read (t0 t1 t2 : FVec Ideal S1x1 .f32) (xo : Vec Ideal S8x128 .f32) (s : Fin 8) (l : Fin 128) :
    k0_pay10 (F := Ideal) t0 t1 t2 xo (ix2 s l)
      = xo (ix2 s l)
        + ((Scalar.select (IntOp.cmpi .eq (BitVec.ofNat 32 l.val) 0#32) (t0 (ix2 (0 : Fin 1) (0 : Fin 1))) 0
            + Scalar.select (IntOp.cmpi .eq (BitVec.ofNat 32 l.val) 1#32) (t1 (ix2 (0 : Fin 1) (0 : Fin 1))) 0)
          + Scalar.select (IntOp.cmpi .eq (BitVec.ofNat 32 l.val) 2#32) (t2 (ix2 (0 : Fin 1) (0 : Fin 1))) 0) := by
  unfold k0_pay10
  refine (addf_apply _ _ _).trans ?_
  rw [shapeCast_self]
  refine congrArg (xo (ix2 s l) + ·) ?_
  refine (addf_apply _ _ _).trans ?_
  refine congrArg₂ (· + ·) ?_ (lane_term t2 2#32 s l)
  refine (addf_apply _ _ _).trans ?_
  exact congrArg₂ (· + ·) (lane_term t0 0#32 s l) (lane_term t1 1#32 s l)

theorem pay10_lane0 (t0 t1 t2 : FVec Ideal S1x1 .f32) (xo : Vec Ideal S8x128 .f32) (s : Fin 8) :
    k0_pay10 (F := Ideal) t0 t1 t2 xo (ix2 s (0 : Fin 128)) = xo (ix2 s (0 : Fin 128)) + t0 (ix2 (0 : Fin 1) (0 : Fin 1)) := by
  have e0 : IntOp.cmpi .eq (BitVec.ofNat 32 (0 : Fin 128).val) 0#32 = 1#1 := by decide
  have e1 : IntOp.cmpi .eq (BitVec.ofNat 32 (0 : Fin 128).val) 1#32 = 0#1 := by decide
  have e2 : IntOp.cmpi .eq (BitVec.ofNat 32 (0 : Fin 128).val) 2#32 = 0#1 := by decide
  rw [pay10_read, e0, e1, e2, select_one, select_zero, select_zero, add_zero, add_zero]

theorem pay10_lane1 (t0 t1 t2 : FVec Ideal S1x1 .f32) (xo : Vec Ideal S8x128 .f32) (s : Fin 8) :
    k0_pay10 (F := Ideal) t0 t1 t2 xo (ix2 s (1 : Fin 128)) = xo (ix2 s (1 : Fin 128)) + t1 (ix2 (0 : Fin 1) (0 : Fin 1)) := by
  have e0 : IntOp.cmpi .eq (BitVec.ofNat 32 (1 : Fin 128).val) 0#32 = 0#1 := by decide
  have e1 : IntOp.cmpi .eq (BitVec.ofNat 32 (1 : Fin 128).val) 1#32 = 1#1 := by decide
  have e2 : IntOp.cmpi .eq (BitVec.ofNat 32 (1 : Fin 128).val) 2#32 = 0#1 := by decide
  rw [pay10_read, e0, e1, e2, select_zero, select_one, select_zero, zero_add, add_zero]

theorem pay10_lane2 (t0 t1 t2 : FVec Ideal S1x1 .f32) (xo : Vec Ideal S8x128 .f32) (s : Fin 8) :
    k0_pay10 (F := Ideal) t0 t1 t2 xo (ix2 s (2 : Fin 128)) = xo (ix2 s (2 : Fin 128)) + t2 (ix2 (0 : Fin 1) (0 : Fin 1)) := by
  have e0 : IntOp.cmpi .eq (BitVec.ofNat 32 (2 : Fin 128).val) 0#32 = 0#1 := by decide
  have e1 : IntOp.cmpi .eq (BitVec.ofNat 32 (2 : Fin 128).val) 1#32 = 0#1 := by decide
  have e2 : IntOp.cmpi .eq (BitVec.ofNat 32 (2 : Fin 128).val) 2#32 = 1#1 := by decide
  rw [pay10_read, e0, e1, e2, select_zero, select_zero, select_one, add_zero, zero_add]

end Cert.KernelIdeal.Payload

end
-- ==== Proof.KValue.lean ====
/-
  What the kernel's output array holds, at the ideal instance: each of its three totals, summed the kernel's way.

  At grid point `t` the body's loop adds up, chunk by chunk, the three totals of the staged blocks — the positive labels,
  `exp p` over the non-positive ones, `exp (-p)` over the positive ones (`p` the sigmoid of the score) — and adds total
  `λ` (λ = 0, 1, 2) to lane `λ` of every sublane of the output block. The block is reset at the first point of a group of eight
  and written back after the last, so lane `λ` of rows `8 q … 8 q + 7` of the output array is the sum over the group's eight
  points, their eight chunks, 256 rows and 1024 lanes; the entry read there is entry
  `(((8 q + k) · 8 + j) · 256 + r) · 1024 + l` of the argument row. All three totals go the same road, so the road is laid
  once, for any per-entry term and the projection and lane that go with it.
-/
import proofs.«425582_j1709396984423_3_alg».proof.Proof.Body
import proofs.«425582_j1709396984423_3_alg».proof.Proof.Blocks
import proofs.«425582_j1709396984423_3_alg».proof.Proof.Final
import proofs.«425582_j1709396984423_3_alg».proof.Proof.Payload
import proofs.«425582_j1709396984423_3_alg».proof.Proof.Spec
import proofs.«425582_j1709396984423_3_alg».proof.Proof.Sums

noncomputable section

open Idealize.ShloMosaic Idealize.ShloMosaic.TcCoe Idealize.SL.Sem

namespace Cert.KernelIdeal.KValue

open Cert.KernelIdeal Cert.KernelIdeal.Gen Cert.LabelCorr ValueIdx
open Cert.KernelIdeal.Body Cert.KernelIdeal.Blocks Cert.KernelIdeal.Final Cert.KernelIdeal.Payload

/-- The one index of a [1, 1] total. -/
abbrev o11 : S1x1.Idx := ix2 (0 : Fin 1) (0 : Fin 1)

/-- One of the three totals: the per-entry term, which of the carried triple it is, the lane it lands in, and that the
    body's arithmetic treats it so. -/
structure Kind where
  term : EReal → BitVec 32 → EReal
  proj : Triple Ideal → FVec Ideal S1x1 .f32
  lane : Fin 128
  init : proj (k0_pay2, k0_pay3, k0_pay4) o11 = 0
  step : ∀ (x : Vec Ideal S2048x1024 .f32) (y : Vec Ideal S2048x1024 .i32) (k : Fin k0_t1_loop.trips) (acc : Triple Ideal),
    proj (tripF x y k acc) o11
      = proj acc o11 + ∑ r : Fin 256, ∑ l : Fin 1024, term (chunk x k (ix2 r l)) (chunk y k (ix2 r l))
  land : ∀ (T : Triple Ideal) (xo : Vec Ideal S8x128 .f32) (s : Fin 8),
    k0_pay10 (F := Ideal) T.1 T.2.1 T.2.2 xo (ix2 s lane) = xo (ix2 s lane) + proj T o11

/-- The positive labels. -/
def kPos : Kind where
  term _ w := posTerm w
  proj T := T.1
  lane := 0
  init := pay2_apply o11
  step x y k acc := pay7_apply acc.1 (chunk y k) o11
  land T xo s := pay10_lane0 T.1 T.2.1 T.2.2 xo s

/-- `exp p` over the non-positive labels. -/
def kNegExp : Kind where
  term := negExp
  proj T := T.2.1
  lane := 1
  init := pay3_apply o11
  step x y k acc := pay8_apply acc.2.1 (chunk x k) (chunk y k) o11
  land T xo s := pay10_lane1 T.1 T.2.1 T.2.2 xo s

/-- `exp (-p)` over the positive labels. -/
def kPosExp : Kind where
  term := posExp
  proj T := T.2.2
  lane := 2
  init := pay4_apply o11
  step x y k acc := pay9_apply acc.2.2 (chunk x k) (chunk y k) o11
  land T xo s := pay10_lane2 T.1 T.2.1 T.2.2 xo s

variable (K : Kind)

/-- Chunk `j`'s total of a staged pair of blocks (zero past the eighth chunk: the loop never gets there). -/
def chunkTotal (x : Vec Ideal S2048x1024 .f32) (y : Vec Ideal S2048x1024 .i32) (j : ℕ) : EReal :=
  if h : j < k0_t1_loop.trips then ∑ r : Fin 256, ∑ l : Fin 1024, K.term (chunk x ⟨j, h⟩ (ix2 r l)) (chunk y ⟨j, h⟩ (ix2 r l)) else 0

/-- The carried total after `n` trips is the sum of the first `n` chunks' totals. -/
theorem carried_total (x : Vec Ideal S2048x1024 .f32) (y : Vec Ideal S2048x1024 .i32) (n : ℕ) :
    K.proj (carried x y n) o11 = 0 + ∑ j ∈ Finset.range n, chunkTotal K x y j := by
  refine running_total 0 (chunkTotal K x y) (fun n => K.proj (carried x y n) o11) K.init (fun j => ?_) n
  show K.proj (carried x y (j + 1)) o11 = K.proj (carried x y j) o11 + chunkTotal K x y j
  unfold chunkTotal
  rw [carried]
  by_cases h : j < k0_t1_loop.trips
  · rw [dif_pos h, dif_pos h, K.step]
  · rw [dif_neg h, dif_neg h, add_zero]

/-- The entry of the argument row under lane `l` of row `r` of chunk `j` at grid point `t`. -/
def posOf (t j r l : ℕ) : ℕ := ((t * 8 + j) * 256 + r) * 1024 + l

variable (m : (ℓ : Loc nD τ sig) → Buf (Elt Ideal) ℓ)

/-- The scores and the labels the program was launched with, on core `c`. -/
abbrev scores (c : Dev nD) : LabelCorr.Scores := m ((c : Thread nD τ).loc main_arg0)
abbrev labels (c : Dev nD) : LabelCorr.Labels := m ((c : Thread nD τ).loc main_arg1)

/-- The total of grid point `t`: its eight chunks, each 256 rows of 1024 lanes, read off the argument rows. -/
def pointTotal (c : Dev nD) (t : ℕ) : EReal :=
  ∑ j : Fin 8, ∑ r : Fin 256, ∑ l : Fin 1024,
    K.term (scores m c (rowIdx (posOf t j.val r.val l.val))) (labels m c (rowIdx (posOf t j.val r.val l.val)))

/-- Lane `l` of row `r` of chunk `j` of the blocks staged at point `t` is that entry of the argument rows. -/
theorem chunk_scores (c : Dev nD) (t : Fin cfg0.N) (j : Fin k0_t1_loop.trips) (r : Fin 256) (l : Fin 1024) :
    chunk (xblk m c t) j (ix2 r l) = scores m c (rowIdx (posOf t.val j.val r.val l.val)) := by
  rw [chunk_apply, xblk_apply, xarr_eq, reshape_apply]
  congr 2
  show (2048 * t.val + (256 * j.val + r.val)) * 1024 + l.val = posOf t.val j.val r.val l.val
  unfold posOf
  ring

theorem chunk_labels (c : Dev nD) (t : Fin cfg0.N) (j : Fin k0_t1_loop.trips) (r : Fin 256) (l : Fin 1024) :
    chunk (yblk m c t) j (ix2 r l) = labels m c (rowIdx (posOf t.val j.val r.val l.val)) := by
  rw [chunk_apply, yblk_apply, yarr_eq, reshape_apply]
  congr 2
  show (2048 * t.val + (256 * j.val + r.val)) * 1024 + l.val = posOf t.val j.val r.val l.val
  unfold posOf
  ring

/-- What the loop yields at point `t` is the point's total. -/
theorem totals_eq (c : Dev nD) (t : Fin cfg0.N) :
    K.proj (totals (xblk m c t) (yblk m c t)) o11 = pointTotal K m c t.val := by
  show K.proj (carried (xblk m c t) (yblk m c t) 8) o11 = _
  rw [carried_total, zero_add, ← Fin.sum_univ_eq_sum_range (chunkTotal K (xblk m c t) (yblk m c t)) 8]
  unfold pointTotal
  refine Finset.sum_congr rfl fun j _ => ?_
  have hj : j.val < k0_t1_loop.trips := by rw [trips_eq]; exact j.isLt
  unfold chunkTotal
  rw [dif_pos hj]
  refine Finset.sum_congr rfl fun r _ => Finset.sum_congr rfl fun l _ => ?_
  rw [chunk_scores m c t ⟨j.val, hj⟩ r l, chunk_labels m c t ⟨j.val, hj⟩ r l]

/-- Lane `K.lane` of sublane `s` of the staging block after point `n` (zero past the grid: never read). -/
def laneAt (c : Dev nD) (s : Fin 8) (n : ℕ) : EReal :=
  if h : n < cfg0.N then outsAt0 m c n h (ix2 s K.lane) else 0

/-- At a group's first point the lane holds the point's total. -/
theorem laneAt_reset (c : Dev nD) (s : Fin 8) (n : ℕ) (hn : n < 16) (h0 : n % 8 = 0) :
    laneAt K m c s n = 0 + pointTotal K m c n := by
  have hN : cfg0.N = 16 := N_0
  have h : n < cfg0.N := by rw [hN]; exact hn
  unfold laneAt
  rw [dif_pos h]
  have e := outsAt0_A m c ⟨n, h⟩ h0
  dsimp only at e
  rw [e, out_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    ((hcond0_0 ⟨n, h⟩).mpr h0) (xblk m c ⟨n, h⟩) (yblk m c ⟨n, h⟩)]
  rw [K.land, pay1_apply, totals_eq K m c ⟨n, h⟩]

/-- Elsewhere it holds what the point before left plus the point's total. -/
theorem laneAt_acc (c : Dev nD) (s : Fin 8) (n : ℕ) (hn : n < 16) (h0 : ¬ n % 8 = 0) :
    laneAt K m c s n = laneAt K m c s (n - 1) + pointTotal K m c n := by
  have hN : cfg0.N = 16 := N_0
  have h : n < cfg0.N := by rw [hN]; exact hn
  have h' : n - 1 < cfg0.N := by omega
  unfold laneAt
  rw [dif_pos h, dif_pos h']
  have e := outsAt0_B m c ⟨n, h⟩ h0
  dsimp only at e
  rw [e, out_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    (fun hh => h0 ((hcond0_0 ⟨n, h⟩).mp hh)) (xblk m c ⟨n, h⟩) (yblk m c ⟨n, h⟩) (outsAt0 m c (n - 1) h')]
  rw [K.land, totals_eq K m c ⟨n, h⟩]

/-- After a group's last point the lane holds the group's eight point totals. -/
theorem lastBlk_lane (c : Dev nD) (q : Fin 2) (s : Fin 8) :
    lastBlk m c q (ix2 s K.lane) = ∑ k : Fin 8, pointTotal K m c (8 * q.val + k.val) := by
  have hN : cfg0.N = 16 := N_0
  have hq := q.isLt
  have h := grouped_total_last 0 (pointTotal K m c) (laneAt K m c s) 16 (laneAt_reset K m c s) (laneAt_acc K m c s) q.val (by omega)
  rw [zero_add] at h
  rw [← h]
  unfold laneAt lastBlk
  rw [dif_pos (by rw [hN]; omega)]

/-- The two groups' totals together are the total over all 2^25 entries of the argument rows. -/
theorem groups_total (c : Dev nD) :
    lastBlk m c 0 (ix2 (0 : Fin 8) K.lane) + lastBlk m c 1 (ix2 (0 : Fin 8) K.lane)
      = ∑ n : Fin 33554432, K.term (scores m c (rowIdx n.val)) (labels m c (rowIdx n.val)) := by
  rw [lastBlk_lane, lastBlk_lane, sum_flat_split (fun n => K.term (scores m c (rowIdx n)) (labels m c (rowIdx n))), Fin.sum_univ_two]
  unfold pointTotal
  congr 1

end Cert.KernelIdeal.KValue

end
-- ==== Proof.Tail.lean ====
/-
  The host operations after the kernel: from the 16 × 128 output array to the loss.

  @main reads lanes 0, 1, 2 of rows 0 and 8 of the array (sublane 0 of each group's block), adds the two rows' entries —
  the number of positive labels `n₊`, the total of `exp p` over the non-positive labels, the total of `exp (-p)` over the
  positive ones —, takes `n₋ = 2^25 - n₊`, and returns `exp-totals' product / max (n₊ n₋) 1`, or
  `∑ exp p / max n₋ 1` when `n₊ = 0`.
-/
import proofs.«425582_j1709396984423_3_alg».proof.Proof.Gen.KernelIdeal.Frame
import proofs.«425582_j1709396984423_3_alg».proof.Proof.Spec
import proofs.«425582_j1709396984423_3_alg».proof.Proof.Consts
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem

namespace Cert.KernelIdeal.Tail

open Cert.KernelIdeal Cert.KernelIdeal.Gen Cert.LabelCorr ValueIdx

variable {F : FTy → Type} [FloatOps F]

/-- One entry of the output array, as a scalar tensor: a 1 × 1 slice, reshaped. -/
def pick (out : Vec F S16x128 .f32) (off : Fin 2 → Nat) (h : S16x128.Slices off S1x1) : (⟨S_, .f32⟩ : BufTy).Contents (Elt F) :=
  shapeCast S_ (extractStridedSlice S1x1 off out h) shapeCasts_S1x1_S_

/-- The host operations after the kernel, as one function of the output array. -/
def tailFn (out : Vec F S16x128 .f32) : (⟨S_, .f32⟩ : BufTy).Contents (Elt F) :=
  select
    (cmpf .oeq (addf (pick out ![0, 0] slices_S16x128_S1x1_0_0) (pick out ![8, 0] slices_S16x128_S1x1_8_0)) (constant S_ .f32 0x00000000#32))
    (Host.divf (addf (pick out ![0, 1] slices_S16x128_S1x1_0_1) (pick out ![8, 1] slices_S16x128_S1x1_8_1))
      (maximumf (subf (constant S_ .f32 0x4C000000#32)
          (addf (pick out ![0, 0] slices_S16x128_S1x1_0_0) (pick out ![8, 0] slices_S16x128_S1x1_8_0)))
        (constant S_ .f32 0x3F800000#32)))
    (Host.divf
      (mulf (addf (pick out ![0, 2] slices_S16x128_S1x1_0_2) (pick out ![8, 2] slices_S16x128_S1x1_8_2))
        (addf (pick out ![0, 1] slices_S16x128_S1x1_0_1) (pick out ![8, 1] slices_S16x128_S1x1_8_1)))
      (maximumf
        (mulf (addf (pick out ![0, 0] slices_S16x128_S1x1_0_0) (pick out ![8, 0] slices_S16x128_S1x1_8_0))
          (subf (constant S_ .f32 0x4C000000#32)
            (addf (pick out ![0, 0] slices_S16x128_S1x1_0_0) (pick out ![8, 0] slices_S16x128_S1x1_8_0))))
        (constant S_ .f32 0x3F800000#32)))

set_option maxHeartbeats 4000000 in
/-- The operations after the kernel, run from any contents `W`, leave in the result that function of the output array. -/
theorem after_tail (W : Valuation τ sig (Elt F)) :
    StableHlo.after [hostOps1, hostOps1_1].flatten W (Proc.devRef .tc main_v26) = tailFn (W (Proc.devRef .tc main_v2)) := by
  simp only [hostOps1, hostOps1_1, List.flatten_cons, List.flatten_nil, List.append_nil, List.cons_append, List.nil_append]
  after_results_simp
  rfl

variable (m : (ℓ : Loc nD τ sig) → Buf (Elt F) ℓ)

/-- So after the run the program's result is that function of the output array the pipeline leaves. -/
theorem tail_eq (c : Dev nD) :
    Pipeline.afterTail₀ cfgs (dats m) 0 (V0 m) [hostOps1, hostOps1_1] c main_v26 = tailFn ((dats m 0 c).arrAt 2 cfg0.N) := by
  unfold Pipeline.afterTail₀
  have hW : Pipeline.withArrays (cfgs 0).spec c (V0 m c) (fun w => (dats m 0 c).arrAt w (cfgs 0).N) (Proc.devRef .tc main_v2)
      = (dats m 0 c).arrAt 2 cfg0.N := Pipeline.withArrays_arr spec0 launch0.win.arr_inj c _ _ 2
  generalize Pipeline.withArrays (cfgs 0).spec c (V0 m c) (fun w => (dats m 0 c).arrAt w (cfgs 0).N) = W at hW ⊢
  rw [after_tail W, hW]

/-! ## At the ideal instance: the loss of the four totals -/

/-- An entry picked at offsets `(a, b)` is the array's entry `(a, b)`. -/
theorem pick_apply (out : Vec Ideal S16x128 .f32) (a : Fin 16) (b : Fin 128) (off : Fin 2 → Nat) (hoff : off = ![a.val, b.val])
    (h : S16x128.Slices off S1x1) (i : S_.Idx) : pick out off h i = out (ix2 a b) := by
  subst hoff
  unfold pick
  refine (shapeCast_apply _ shapeCasts_S1x1_S_ i (ix2 (0 : Fin 1) (0 : Fin 1)) ?_).trans ?_
  · rw [Shape.rowMajor_val_two]
    show 0 * 1 + 0 = (Shape.rowMajorPi _ i).val
    rw [Shape.rowMajorPi_zero]
  refine extractStridedSlice_apply _ out h _ (ix2 a b) fun d => ?_
  match d with
  | ⟨0, _⟩ => show a.val = a.val + 0; omega
  | ⟨1, _⟩ => show b.val = b.val + 0; omega

/-- The program's result from the output array: the loss of the totals in lanes 0, 1, 2 of rows 0 and 8. -/
theorem tailFn_apply (out : Vec Ideal S16x128 .f32) (i : S_.Idx) :
    tailFn (F := Ideal) out i
      = loss (out (ix2 (0 : Fin 16) (0 : Fin 128)) + out (ix2 (8 : Fin 16) (0 : Fin 128)))
          (((33554432 : ℝ) : EReal) - (out (ix2 (0 : Fin 16) (0 : Fin 128)) + out (ix2 (8 : Fin 16) (0 : Fin 128))))
          (out (ix2 (0 : Fin 16) (1 : Fin 128)) + out (ix2 (8 : Fin 16) (1 : Fin 128)))
          (out (ix2 (0 : Fin 16) (2 : Fin 128)) + out (ix2 (8 : Fin 16) (2 : Fin 128))) := by
  have p00 := pick_apply out 0 0 ![0, 0] rfl slices_S16x128_S1x1_0_0 i
  have p80 := pick_apply out 8 0 ![8, 0] rfl slices_S16x128_S1x1_8_0 i
  have p01 := pick_apply out 0 1 ![0, 1] rfl slices_S16x128_S1x1_0_1 i
  have p81 := pick_apply out 8 1 ![8, 1] rfl slices_S16x128_S1x1_8_1 i
  have p02 := pick_apply out 0 2 ![0, 2] rfl slices_S16x128_S1x1_0_2 i
  have p82 := pick_apply out 8 2 ![8, 2] rfl slices_S16x128_S1x1_8_2 i
  unfold tailFn loss
  show Scalar.select (Ideal.cmp .oeq (pick out ![0, 0] slices_S16x128_S1x1_0_0 i + pick out ![8, 0] slices_S16x128_S1x1_8_0 i) (Ideal.ofBits .f32 0x00000000#32))
      (Ideal.div (pick out ![0, 1] slices_S16x128_S1x1_0_1 i + pick out ![8, 1] slices_S16x128_S1x1_8_1 i)
        (max (Ideal.ofBits .f32 0x4C000000#32 - (pick out ![0, 0] slices_S16x128_S1x1_0_0 i + pick out ![8, 0] slices_S16x128_S1x1_8_0 i))
          (Ideal.ofBits .f32 0x3F800000#32)))
      (Ideal.div
        ((pick out ![0, 2] slices_S16x128_S1x1_0_2 i + pick out ![8, 2] slices_S16x128_S1x1_8_2 i)
          * (pick out ![0, 1] slices_S16x128_S1x1_0_1 i + pick out ![8, 1] slices_S16x128_S1x1_8_1 i))
        (max ((pick out ![0, 0] slices_S16x128_S1x1_0_0 i + pick out ![8, 0] slices_S16x128_S1x1_8_0 i)
            * (Ideal.ofBits .f32 0x4C000000#32 - (pick out ![0, 0] slices_S16x128_S1x1_0_0 i + pick out ![8, 0] slices_S16x128_S1x1_8_0 i)))
          (Ideal.ofBits .f32 0x3F800000#32))) = _
  rw [p00, p80, p01, p81, p02, p82, ofBits_zero, ofBits_one, ofBits_count]

end Cert.KernelIdeal.Tail

end
-- ==== Proof.KRun.lean ====
/-
  The idealized kernel's run, read: its result is the loss of the argument rows.

  The pipeline leaves in the output array, in lanes 0, 1, 2 of rows 0 and 8, each group's totals; the operations after
  the kernel add the two groups' and form the loss; and the two groups' totals together are the totals over all 2^25
  entries, re-indexed core by core, step by step, chunk by chunk, row by row, lane by lane.
-/
import proofs.«425582_j1709396984423_3_alg».proof.Proof.KValue
import proofs.«425582_j1709396984423_3_alg».proof.Proof.Tail

noncomputable section

open Idealize.ShloMosaic Idealize.ShloMosaic.TcCoe Idealize.SL.Sem

namespace Cert.KernelIdeal.KRun

open Cert.KernelIdeal Cert.KernelIdeal.Gen Cert.LabelCorr ValueIdx
open Cert.KernelIdeal.Final Cert.KernelIdeal.KValue Cert.KernelIdeal.Tail

variable (m : (ℓ : Loc nD τ sig) → Buf (Elt Ideal) ℓ) (ρ : Dev nD → PrngReg)

/-- Rows 0 and 8 of the output array are sublane 0 of the two groups' last blocks. -/
theorem outArr_apply (c : Dev nD) (q : Fin 2) (s : Fin 8) (l : Fin 128) (R : Fin 16) (hR : R.val = 8 * q.val + s.val) :
    outArr m c (ix2 R l) = lastBlk m c q (ix2 s l) := by
  unfold outArr
  have key : ∀ (q' : Fin 2) (s' : Fin 8) (l' : Fin 128), q' = q → s' = s → l' = l →
      lastBlk m c q' (ix2 s' l') = lastBlk m c q (ix2 s l) := by
    rintro _ _ _ rfl rfl rfl; rfl
  have hs := s.isLt
  refine key _ _ _ (Fin.ext ?_) (Fin.ext ?_) rfl
  · show R.val / 8 = q.val
    omega
  · show R.val % 8 = s.val
    omega
theorem out_row0 (c : Dev nD) (l : Fin 128) : outArr m c (ix2 (0 : Fin 16) l) = lastBlk m c 0 (ix2 (0 : Fin 8) l) :=
  outArr_apply m c 0 0 l 0 (by decide)
theorem out_row8 (c : Dev nD) (l : Fin 128) : outArr m c (ix2 (8 : Fin 16) l) = lastBlk m c 1 (ix2 (0 : Fin 8) l) :=
  outArr_apply m c 1 0 l 8 (by decide)

/-- The three totals, each the two groups' lanes added. -/
theorem total_pos (c : Dev nD) :
    outArr m c (ix2 (0 : Fin 16) (0 : Fin 128)) + outArr m c (ix2 (8 : Fin 16) (0 : Fin 128)) = tPos (labels m c) := by
  rw [out_row0, out_row8]
  exact groups_total kPos m c
theorem total_negExp (c : Dev nD) :
    outArr m c (ix2 (0 : Fin 16) (1 : Fin 128)) + outArr m c (ix2 (8 : Fin 16) (1 : Fin 128)) = tNegExp (scores m c) (labels m c) := by
  rw [out_row0, out_row8]
  exact groups_total kNegExp m c
theorem total_posExp (c : Dev nD) :
    outArr m c (ix2 (0 : Fin 16) (2 : Fin 128)) + outArr m c (ix2 (8 : Fin 16) (2 : Fin 128)) = tPosExp (scores m c) (labels m c) := by
  rw [out_row0, out_row8]
  exact groups_total kPosExp m c

/-- The operations after the kernel turn the output array into the loss of the argument rows. -/
theorem result_eq (c : Dev nD) : tailFn (F := Ideal) (outArr m c) = fun _ => lossOf (scores m c) (labels m c) := by
  funext i
  rw [tailFn_apply, total_pos, total_negExp, total_posExp]
  rfl

/-- Every weakly fair execution of the idealized kernel's @main ends with the loss of its argument rows in its result,
    the arguments unchanged. -/
theorem run : θ_run defs (onTc (τ := τ) (main (F := Ideal))) ⟨m, fun _ => 0, ρ⟩ fun r => ∀ c : Dev nD,
      r.2.mem ((c.tc : Thread nD τ).loc main_v26) = (fun _ => lossOf (scores m c) (labels m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v26 (Pipeline.mem_restRefs_of main_v26 (by decide) (by decide))).trans
        ((tail_eq m c).trans (by rw [final_out]; exact result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KRun

end
-- ==== Proof.lean ====
/- The proof of `Cert.Claim` (proofs.«425582_j1709396984423_3_alg».proof.Defs): the label-correlation loss kernel against its jnp reference.

   Both programs compute, over a row of 2^25 scores `x` and integer labels `w`, with `p = sigmoid x` and a label POSITIVE
   when `w > 0`: `n₊` the number of positive labels, `n₋ = 2^25 - n₊`, `S₋ = ∑ exp p` over the non-positive labels,
   `S₊ = ∑ exp (-p)` over the positive ones, and return `S₊ S₋ / max (n₊ n₋) 1`, or `S₋ / max n₋ 1` when `n₊ = 0`
   (Proof/Spec.lean). Over the extended reals the two agree on every input:
     * the kernel's `tpu.logistic` and the reference's `1 / (1 + exp (-x))` are one function;
     * the kernel SELECTS `exp p` or `0` by the label where the reference MULTIPLIES by `1 - pos` or `pos` (0 · e = 0, 1 · e = e);
     * the kernel takes `n₋` as `2^25 - n₊` where the reference sums `1 - pos`: the same number, the summands being real;
     * the kernel sums lane by lane, row by row, chunk by chunk (a loop of 8), grid point by grid point (an output block
       accumulated over 8 points, one block per core's half), and adds the two halves on the host, where the reference
       sums the 2^25 entries at once: addition on the extended reals is commutative and associative, and every entry
       is read exactly once, at position `((((c · 8 + k) · 8 + j) · 256 + r) · 1024 + l`.
   The precondition (finite scores) is not used: the identity holds at the infinities too.
   The frames of the two kernel programs are the generated ones; the reference's frame is its run with the result dropped. -/
import proofs.«425582_j1709396984423_3_alg».proof.Defs
import proofs.«425582_j1709396984423_3_alg».proof.Proof.Gen.Kernel
import proofs.«425582_j1709396984423_3_alg».proof.Proof.Gen.Kernel.Skeleton
import proofs.«425582_j1709396984423_3_alg».proof.Proof.Gen.Kernel.Loops
import proofs.«425582_j1709396984423_3_alg».proof.Proof.Gen.Kernel.Launch
import proofs.«425582_j1709396984423_3_alg».proof.Proof.Gen.Kernel.Points
import proofs.«425582_j1709396984423_3_alg».proof.Proof.Gen.Kernel.Frame
import proofs.«425582_j1709396984423_3_alg».proof.Proof.Gen.KernelIdeal
import proofs.«425582_j1709396984423_3_alg».proof.Proof.Gen.KernelIdeal.Skeleton
import proofs.«425582_j1709396984423_3_alg».proof.Proof.Gen.KernelIdeal.Loops
import proofs.«425582_j1709396984423_3_alg».proof.Proof.Gen.KernelIdeal.Launch
import proofs.«425582_j1709396984423_3_alg».proof.Proof.Gen.KernelIdeal.Points
import proofs.«425582_j1709396984423_3_alg».proof.Proof.Gen.KernelIdeal.Frame
import proofs.«425582_j1709396984423_3_alg».proof.Proof.Gen.ReferenceIdeal
import proofs.«425582_j1709396984423_3_alg».proof.Proof.Gen.Pre_finite_inputs
import proofs.«425582_j1709396984423_3_alg».proof.Proof.RefRunP
import proofs.«425582_j1709396984423_3_alg».proof.Proof.RefReadP
import proofs.«425582_j1709396984423_3_alg».proof.Proof.RefValue
import proofs.«425582_j1709396984423_3_alg».proof.Proof.KRun
import Idealize.ShloMosaic.Adequacy
import Idealize.ShloMosaic.Init

noncomputable section

namespace Cert.Proof

open Idealize.ShloMosaic Idealize.SL.Sem Cert.Kernel

/-- The word-level kernel runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the rows both programs end with the loss of the row in their result. -/
theorem algebraic : Cert.algebraic_KernelIdeal_ReferenceIdeal := by
  intro m ρ m' ρ' _ hagree
  refine ⟨fun c => fun _ => Cert.LabelCorr.lossOf (Cert.KernelIdeal.KValue.scores m c) (Cert.KernelIdeal.KValue.labels m c),
    Cert.KernelIdeal.KRun.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v29_eq, Cert.ReferenceIdeal.RefValue.ref_value, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
